-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x64 : Shape := ⟨3, ![8, 2048, 64]⟩
abbrev S8x2048x2048 : Shape := ⟨3, ![8, 2048, 2048]⟩
abbrev S_ : Shape := ⟨0, ![]⟩

class Facts : Prop where
  bcast_S_S8x2048x64 : S_.BroadcastsInDim S8x2048x64 (![] : Fin 0 → Fin S8x2048x64.rank)
  reducesTo_S8x2048x64_S_d0_1_2 : S8x2048x64.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_

variable [Facts]

def fn {F : FTy → Type} [FloatOps F] (main_arg0 : FVec F S8x2048x64 .f32) (main_arg1 : FVec F S8x2048x2048 .f32) : IVec S_ 1 :=
  let main_v0 : FVec F S8x2048x64 .f32 := Host.absf main_arg0
  let main_cst : FVec F S_ .f32 := constant S_ .f32 0x7F800000#32
  let main_v1 : FVec F S8x2048x64 .f32 := broadcastInDim S8x2048x64 ![] bcast_S_S8x2048x64 main_cst
  let main_v2 : IVec S8x2048x64 1 := cmpf .olt main_v0 main_v1
  let main_c : IVec S_ 1 := constantI S_ 1 1#1
  let main_v3 : IVec S_ 1 := (fun x v => Host.reduce IntOp.andi x v reducesTo_S8x2048x64_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  main_v8
-- ==== Kernel.lean ====
abbrev S8x2048x64 : Shape := ⟨3, ![8, 2048, 64]⟩
abbrev S8x2048x2048 : Shape := ⟨3, ![8, 2048, 2048]⟩
abbrev S1x1024x2048 : Shape := ⟨3, ![1, 1024, 2048]⟩
abbrev S1x2048x64 : Shape := ⟨3, ![1, 2048, 64]⟩
abbrev S1x1024x64 : Shape := ⟨3, ![1, 1024, 64]⟩
abbrev S1024x2048 : Shape := ⟨2, ![1024, 2048]⟩
abbrev S2048x64 : Shape := ⟨2, ![2048, 64]⟩
abbrev S1024x64 : Shape := ⟨2, ![1024, 64]⟩

abbrev nBuf : Space → Nat
  | .hbm => 3
  | .vmem => 6
  | .smem => 0
  | _ => 0

abbrev bufTy : (tb : Table) → Fin (tcTables nBuf tb) → BufTy
  | .hbm, ⟨0, _⟩ => ⟨S8x2048x64, .f32⟩
  | .hbm, ⟨1, _⟩ => ⟨S8x2048x2048, .f32⟩
  | .hbm, ⟨2, _⟩ => ⟨S8x2048x64, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048x64, .f32⟩
  | .local _ .vmem, ⟨3, _⟩ => ⟨S1x2048x64, .f32⟩
  | .local _ .vmem, ⟨4, _⟩ => ⟨S1x1024x64, .f32⟩
  | .local _ .vmem, ⟨5, _⟩ => ⟨S1x1024x64, .f32⟩
  | _, _ => ⟨S8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x2048x2048.size a
  hwx0_0 : ∀ i : grid0.Coords, EltTy.bits .f32 = 32 ∨ (Rect.block (s := S8x2048x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S8x2048x64.size a
  hwx0_1 : ∀ i : grid0.Coords, EltTy.bits .f32 = 32 ∨ (Rect.block (s := S8x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S8x2048x64.size a
  hwx0_2 : ∀ i : grid0.Coords, EltTy.bits .f32 = 32 ∨ (Rect.block (s := S8x2048x64) S1x1024x64.size (cc0_transform_2 i) (hinb0_2 i)).WholeWords (EltTy.packing .f32)

variable [Facts₀]

def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg1) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x64 : Shape := ⟨3, ![8, 2048, 64]⟩
abbrev S8x2048x2048 : Shape := ⟨3, ![8, 2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8x2048x64, .f32⟩
  | .hbm, ⟨1, _⟩ => ⟨S8x2048x2048, .f32⟩
  | .hbm, ⟨2, _⟩ => ⟨S8x2048x64, .f32⟩
  | .hbm, ⟨3, _⟩ => ⟨S_, .f32⟩
  | .hbm, ⟨4, _⟩ => ⟨S8x2048x64, .f32⟩
  | .hbm, ⟨5, _⟩ => ⟨S8x2048x64, .i1⟩
  | .hbm, ⟨6, _⟩ => ⟨S8x2048x64, .f32⟩
  | .hbm, ⟨7, _⟩ => ⟨S_, .f32⟩
  | .hbm, ⟨8, _⟩ => ⟨S8x2048x64, .f32⟩
  | .hbm, ⟨9, _⟩ => ⟨S8x2048x64, .f32⟩
  | .hbm, ⟨10, _⟩ => ⟨S8x2048x64, .f32⟩
  | _, _ => ⟨S8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S_S8x2048x64 : S_.BroadcastsInDim S8x2048x64 (![] : Fin 0 → Fin S8x2048x64.rank)
  dot_S8x2048x2048_S8x2048x64_S8x2048x64_2_1_1_2_0_0_wf : DotDims.WF S8x2048x2048 S8x2048x64 S8x2048x64 [2] [1] [1] [2] [0] [0]

variable [Facts₀]

def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.AggregateIndicator.lean ====
/-
  The function both programs compute, stated once over the argument arrays.

  For an adjacency array a : [8, 2048, 2048] and a feature array x : [8, 2048, 64] the aggregated
  signal is the batched matrix product
      t[b, r, f] = ∑ k < 2048, a[b, r, k] · x[b, k, f],
  and the layer's output is the threshold indicator of it, spelt as the source spells it:
      out = if t > 1/2 then t / t else t · 0.
  Over the extended reals every operation is the exact one, so the result is a function of the single
  number t; nothing about the order or the tiling of the sum is left in it.
-/
import Idealize.ShloMosaic.PureOps.Ideal
import Idealize.ShloMosaic.Lib.ValueIdx

noncomputable section

namespace MaxLayer

open Idealize.ShloMosaic Idealize.ShloMosaic.ValueIdx

/-- The adjacency weights: one 2048 × 2048 matrix per batch entry. -/
abbrev Adj : Shape := ⟨3, ![8, 2048, 2048]⟩
/-- The node features, and the output: one 2048 × 64 matrix per batch entry. -/
abbrev Feat : Shape := ⟨3, ![8, 2048, 64]⟩

/-- The threshold step on one aggregated entry: `t / t` where `t` exceeds one half (the word
    `0x3F000000`), `t · 0` elsewhere — the quotient and the product the exact ones of the extended reals. -/
def indicator (t : EReal) : EReal :=
  Scalar.select (Ideal.cmp .ogt t (Ideal.ofBits .f32 0x3F000000#32)) (Ideal.div t t) (t * Ideal.ofBits .f32 0x00000000#32)

/-- One entry of the batched product: row `r` of `a[b]` against column `f` of `x[b]`. -/
def aggregate (a : Adj.Idx → EReal) (x : Feat.Idx → EReal) (b : Fin 8) (r : Fin 2048) (f : Fin 64) : EReal :=
  ∑ k : Fin 2048, a (ix3 b r k) * x (ix3 b k f)

/-- The layer: the indicator of the aggregated signal, entry by entry. -/
def layer (a : Adj.Idx → EReal) (x : Feat.Idx → EReal) : Feat.Idx → EReal :=
  fun i => indicator (aggregate a x (i 0) (i 1) (i 2))

theorem layer_apply (a : Adj.Idx → EReal) (x : Feat.Idx → EReal) (b : Fin 8) (r : Fin 2048) (f : Fin 64) :
    layer a x (ix3 b r f) = indicator (aggregate a x b r f) := rfl

end MaxLayer

end
-- ==== Proof.BodyEntry.lean ====
/-
  What one call of the kernel body stores, entry by entry.

  The body loads an adjacency block A : [1, 1024, 2048] and a feature block X : [1, 2048, 64], drops the
  leading unit axis of each, multiplies the two matrices into a zero accumulator, applies the threshold
  step to every entry of the product and stores the result with the unit axis put back. Over the extended
  reals the matrix product at (p, q) is the plain sum over k of A[0, p, k] · X[0, k, q], so the stored
  block at (0, p, q) is the indicator of that sum.
-/
import proofs.«131060_j41077067219108_2_alg».proof.Proof.Gen.KernelIdeal.Skeleton
import proofs.«131060_j41077067219108_2_alg».proof.Proof.AggregateIndicator
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen
open Idealize.ShloMosaic Idealize.ShloMosaic.ValueIdx MaxLayer

/-! ## The product's operand indices

The dimension numbers contract axis 1 of the left matrix with axis 0 of the right one and have no batch
axis: at output index (p, q) and contraction position k the left index is (p, k) and the right one (k, q). -/

theorem lhs_row (i : S1024x64.Idx) (q : dot_S1024x2048_S2048x64_S1024x64_1_0_0_1_n_n.contr.Idx) :
    (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl

theorem lhs_contr (i : S1024x64.Idx) (q : dot_S1024x2048_S2048x64_S1024x64_1_0_0_1_n_n.contr.Idx) :
    (dot_S1024x2048_S2048x64_S1024x64_1_0_0_1_n_n.lhsIdx i q 1).val = (q ⟨0, by decide⟩).val :=
  dot_S1024x2048_S2048x64_S1024x64_1_0_0_1_n_n.lhsIdx_val_of_single rfl i q

theorem rhs_contr (i : S1024x64.Idx) (q : dot_S1024x2048_S2048x64_S1024x64_1_0_0_1_n_n.contr.Idx) :
    (dot_S1024x2048_S2048x64_S1024x64_1_0_0_1_n_n.rhsIdx i q 0).val = (q ⟨0, by decide⟩).val :=
  dot_S1024x2048_S2048x64_S1024x64_1_0_0_1_n_n.rhsIdx_val_of_single rfl i q

theorem rhs_col (i : S1024x64.Idx) (q : dot_S1024x2048_S2048x64_S1024x64_1_0_0_1_n_n.contr.Idx) :
    (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-- The matrix product into a zero accumulator, at (p, q): the sum over the 2048 contraction positions. -/
theorem product_apply (l : FVec Ideal S1024x2048 .f32) (r : FVec Ideal S2048x64 .f32) (p : Fin 1024) (q : Fin 64) :
    matmul dot_S1024x2048_S2048x64_S1024x64_1_0_0_1_n_n (some .fp32) l r (constant S1024x64 .f32 0x00000000#32) (ix2 p q)
      = ∑ k : Fin 2048, l (ix2 p k) * r (ix2 k q) := by
  simp only [matmul]
  rw [Ideal.matmul_constant_zero_apply, ← Equiv.sum_comp (ValueIdx.contrEquiv1 dot_S1024x2048_S2048x64_S1024x64_1_0_0_1_n_n 2048 rfl rfl).symm]
  refine Finset.sum_congr rfl fun k _ => ?_
  have hk := ValueIdx.contrEquiv1_symm_val dot_S1024x2048_S2048x64_S1024x64_1_0_0_1_n_n 2048 rfl rfl k
  have el : dot_S1024x2048_S2048x64_S1024x64_1_0_0_1_n_n.lhsIdx (ix2 p q) ((ValueIdx.contrEquiv1 dot_S1024x2048_S2048x64_S1024x64_1_0_0_1_n_n 2048 rfl rfl).symm k) = ix2 p k := funext fun a => Fin.ext (by
    match a with
    | ⟨0, _⟩ => exact lhs_row _ _
    | ⟨1, _⟩ => exact (lhs_contr _ _).trans hk)
  have er : dot_S1024x2048_S2048x64_S1024x64_1_0_0_1_n_n.rhsIdx (ix2 p q) ((ValueIdx.contrEquiv1 dot_S1024x2048_S2048x64_S1024x64_1_0_0_1_n_n 2048 rfl rfl).symm k) = ix2 k q := funext fun a => Fin.ext (by
    match a with
    | ⟨0, _⟩ => exact (rhs_contr _ _).trans hk
    | ⟨1, _⟩ => exact rhs_col _ _)
  rw [el, er]

/-! ## The stored block -/

/-- The body's one store at (u, p, q): the indicator of row p of the adjacency block against column q of the
    feature block. -/
theorem stored_apply (A : Vec Ideal S1x1024x2048 .f32) (X : Vec Ideal S1x2048x64 .f32) (u : Fin 1) (p : Fin 1024) (q : Fin 64) :
    k0_pay1 (F := Ideal) A X (ix3 u p q) = indicator (∑ k : Fin 2048, A (ix3 (0 : Fin 1) p k) * X (ix3 (0 : Fin 1) k q)) := by
  unfold k0_pay1
  refine (shapeCast_ab_1ab_apply _ _ u p q).trans ?_
  refine congrArg indicator ?_
  refine (product_apply _ _ p q).trans ?_
  exact Finset.sum_congr rfl fun k _ => by
    rw [shapeCast_1ab_ab_apply, shapeCast_1ab_ab_apply]

end Cert.KernelIdeal.Body

end
-- ==== Proof.KernelLayer.lean ====
/-
  The kernel's result array is the layer of its two arguments.

  The grid has 8 × 2 points; point t = 2·b + h works on batch entry b = t / 2 and on the half h = t % 2
  of its rows. It is handed rows 1024·h … 1024·h + 1023 of the adjacency a[b] (all 2048 columns) and the
  whole feature matrix x[b], and writes rows 1024·h … 1024·h + 1023 of out[b]. By the body's entry-by-entry
  reading the written block at (0, p, q) is the indicator of the sum over k of
  a[b, 1024·h + p, k] · x[b, k, q] — block t of the layer. The sixteen blocks tile the output array (the
  point that covers (b, r, f) is 2·b + r / 1024), so after the run the array is the layer everywhere.
-/
import proofs.«131060_j41077067219108_2_alg».proof.Proof.Gen.KernelIdeal.Value
import proofs.«131060_j41077067219108_2_alg».proof.Proof.BodyEntry
import Idealize.ShloMosaic.Lib.Pipeline.Value

noncomputable section

namespace Cert.KernelIdeal.Layer

open Cert.KernelIdeal Cert.KernelIdeal.Gen Cert.KernelIdeal.Value
open Idealize.ShloMosaic Idealize.ShloMosaic.TcCoe Idealize.SL.Sem Idealize.ShloMosaic.ValueIdx MaxLayer
open Idealize.ShloMosaic.Pipeline (Dat)

variable (m : (ℓ : Loc nD τ sig) → Buf (Elt Ideal) ℓ) (ρ : Dev nD → PrngReg)

theorem zero_offsets : (![0, 0, 0] : Fin 3 → Nat) = fun _ => 0 := funext fun a => by fin_cases a <;> rfl

/-- The three index maps over the sixteen points: the adjacency and the output move together, at block
    (t / 2, t % 2, 0); the features stay at block (t / 2, 0, 0) for both halves of a batch entry. -/
theorem block_indices : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = 0 ∧ win0_1.index t (2 : Fin 3) = 0
    ∧ win0_2.index t (0 : Fin 3) = t.val / 2 ∧ win0_2.index t (1 : Fin 3) = t.val % 2 ∧ win0_2.index t (2 : Fin 3) = 0 :=
  (by decide +kernel : ∀ t : Fin grid0.N, _)

theorem point_lt (t : Fin cfg0.N) : t.val < 16 := lt_of_lt_of_eq t.isLt N_0

/-- The batch entry a point works on. -/
def batchOf (t : Fin cfg0.N) : Fin 8 := ⟨t.val / 2, by have := point_lt t; omega⟩
/-- The array row that row `p` of a point's block is. -/
def rowOf (t : Fin cfg0.N) (p : Fin 1024) : Fin 2048 := ⟨t.val % 2 * 1024 + p.val, by have := p.isLt; omega⟩

/-- The adjacency block at point t: rows 1024·(t % 2) + p of a[t / 2]. -/
theorem adj_block (c : Dev nD) (t : Fin cfg0.N) (p : Fin 1024) (k : Fin 2048) :
    (iblk m c 0 t : Vec Ideal S1x1024x2048 .f32) (ix3 (0 : Fin 1) p k)
      = (V m c main_arg1 : S8x2048x2048.Idx → EReal) (ix3 (batchOf t) (rowOf t p) k) := by
  obtain ⟨e0, e1, e2, -⟩ := block_indices t
  unfold iblk
  rw [View.read_apply]
  show V m c main_arg1 _ = V m c main_arg1 _
  congr 1
  funext a
  apply Fin.ext
  match a with
  | ⟨0, _⟩ => show win0_0.index t (0 : Fin 3) * 1 + 1 * (0 : Fin 1).val = t.val / 2; rw [e0]; simp
  | ⟨1, _⟩ => show win0_0.index t (1 : Fin 3) * 1024 + 1 * p.val = t.val % 2 * 1024 + p.val; rw [e1]; omega
  | ⟨2, _⟩ => show win0_0.index t (2 : Fin 3) * 2048 + 1 * k.val = k.val; rw [e2]; omega

/-- The feature block at point t: the whole of x[t / 2]. -/
theorem feat_block (c : Dev nD) (t : Fin cfg0.N) (k : Fin 2048) (q : Fin 64) :
    (iblk m c 1 t : Vec Ideal S1x2048x64 .f32) (ix3 (0 : Fin 1) k q)
      = (V m c main_arg0 : S8x2048x64.Idx → EReal) (ix3 (batchOf t) k q) := by
  obtain ⟨-, -, -, e0, e1, e2, -⟩ := block_indices t
  unfold iblk
  rw [View.read_apply]
  show V m c main_arg0 _ = V m c main_arg0 _
  congr 1
  funext a
  apply Fin.ext
  match a with
  | ⟨0, _⟩ => show win0_1.index t (0 : Fin 3) * 1 + 1 * (0 : Fin 1).val = t.val / 2; rw [e0]; simp
  | ⟨1, _⟩ => show win0_1.index t (1 : Fin 3) * 2048 + 1 * k.val = k.val; rw [e1]; omega
  | ⟨2, _⟩ => show win0_1.index t (2 : Fin 3) * 64 + 1 * q.val = q.val; rw [e2]; omega

/-- Where the output block's entry (u, p, q) lies in the array. -/
theorem out_index (t : Fin cfg0.N) (u : Fin 1) (p : Fin 1024) (q : Fin 64) :
    ((cfg0.win 2).blk t).view.emb (ix3 u p q) = (ix3 (batchOf t) (rowOf t p) q : S8x2048x64.Idx) := by
  obtain ⟨-, -, -, -, -, -, e0, e1, e2⟩ := block_indices t
  funext a
  apply Fin.ext
  match a with
  | ⟨0, _⟩ => show win0_2.index t (0 : Fin 3) * 1 + 1 * u.val = t.val / 2; rw [e0]; omega
  | ⟨1, _⟩ => show win0_2.index t (1 : Fin 3) * 1024 + 1 * p.val = t.val % 2 * 1024 + p.val; rw [e1]; omega
  | ⟨2, _⟩ => show win0_2.index t (2 : Fin 3) * 64 + 1 * q.val = q.val; rw [e2]; omega

/-- What point t writes back is block t of the layer of the two argument arrays. -/
theorem flushed_eq (c : Dev nD) (t : Fin cfg0.N) :
    (dats m 0 c).flushed 2 t = ((cfg0.win 2).blk t).view.read (Elt Ideal) (layer (V m c main_arg1) (V m c main_arg0)) := by
  rw [Value.flushed2]
  unfold out0_2
  rw [View.canon_unit_zero zero_offsets]
  simp only [View.ld_unit_zero (S := S1x1024x2048) zero_offsets, View.ld_unit_zero (S := S1x2048x64) zero_offsets]
  refine funext fun (j : S1x1024x64.Idx) => ?_
  obtain ⟨u, p, q, rfl⟩ : ∃ (u : Fin 1) (p : Fin 1024) (q : Fin 64), j = ix3 u p q := ⟨j 0, j 1, j 2, eq_ix3 j⟩
  show k0_pay1 (F := Ideal) (iblk m c 0 t) (iblk m c 1 t) (ix3 u p q)
    = layer (V m c main_arg1) (V m c main_arg0) (((cfg0.win 2).blk t).view.emb (ix3 u p q))
  refine (Body.stored_apply (iblk m c 0 t) (iblk m c 1 t) u p q).trans ?_
  rw [out_index, layer_apply]
  refine congrArg indicator ?_
  unfold aggregate
  exact Finset.sum_congr rfl fun k _ => by rw [adj_block, feat_block]

/-- An index of the output array lies in point t's block iff each coordinate lies in the block's range. -/
theorem mem_block (t : Fin cfg0.N) (i : S8x2048x64.Idx) :
    i ∈ ((cfg0.win 2).blk t).view.set ↔ ∀ a : Fin 3, win0_2.index t a * S1x1024x64.size a ≤ (i a).val ∧ (i a).val < win0_2.index t a * S1x1024x64.size a + S1x1024x64.size a := by
  show i ∈ ((View.whole main_v0).slice (win0_2.rect t)).set ↔ _
  rw [View.set_slice_whole, Rect.mem_set_unit]
  exact Iff.rfl

/-- The sixteen blocks cover the output: (b, r, f) lies in the block of point 2·b + r / 1024. -/
theorem covered (i : S8x2048x64.Idx) : ∃ t : Fin cfg0.N, (cfg0.win 2).flush t = true ∧ i ∈ ((cfg0.win 2).blk t).view.set := by
  have h0 : (i 0).val < 8 := (i 0).isLt
  have h1 : (i 1).val < 2048 := (i 1).isLt
  have h2 : (i 2).val < 64 := (i 2).isLt
  have hN : cfg0.N = 16 := N_0
  obtain ⟨t, ht⟩ : ∃ t : Fin cfg0.N, t.val = 2 * (i 0).val + (i 1).val / 1024 := ⟨⟨2 * (i 0).val + (i 1).val / 1024, by omega⟩, rfl⟩
  refine ⟨t, flush0_2 t, ?_⟩
  rw [mem_block]
  obtain ⟨-, -, -, -, -, -, e0, e1, e2⟩ := block_indices t
  intro a
  match a with
  | ⟨0, _⟩ => show win0_2.index t (0 : Fin 3) * 1 ≤ (i 0).val ∧ (i 0).val < win0_2.index t (0 : Fin 3) * 1 + 1; rw [e0]; omega
  | ⟨1, _⟩ => show win0_2.index t (1 : Fin 3) * 1024 ≤ (i 1).val ∧ (i 1).val < win0_2.index t (1 : Fin 3) * 1024 + 1024; rw [e1]; omega
  | ⟨2, _⟩ => show win0_2.index t (2 : Fin 3) * 64 ≤ (i 2).val ∧ (i 2).val < win0_2.index t (2 : Fin 3) * 64 + 64; rw [e2]; omega

/-- After the run the output array is the layer of the arguments as launched. -/
theorem final (c : Dev nD) :
    (dats m 0 c).arrAt 2 cfg0.N = layer (m ((c : Thread nD τ).loc main_arg1)) (m ((c : Thread nD τ).loc main_arg0)) :=
  (dats m 0 c).arrAt_eq_of_cover 2 (layer (V m c main_arg1) (V m c main_arg0)) (fun t _ => flushed_eq m c t) covered

/-- The kernel's run, read: the result is the layer, the arguments are unchanged. -/
theorem run : θ_run defs (onTc (τ := τ) (main (F := Ideal))) ⟨m, fun _ => 0, ρ⟩ fun r => ∀ c : Dev nD,
      r.2.mem ((c : Thread nD τ).loc main_v0) = layer (m ((c : Thread nD τ).loc main_arg1)) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Layer

end
-- ==== Proof.ReferenceLayer.lean ====
/-
  The reference program computes the layer.

  Its nine host operations are one `dot_general` (batch axis 0, contracting the adjacency's last axis
  against the features' middle axis), the two splatted constants 1/2 and 0, a comparison, a quotient, a
  product and a select. Read at an index (b, r, f): the `dot_general` is the sum over k of
  a[b, r, k] · x[b, k, f]; each of the other operations acts entry by entry on that one number, and the
  host's quotient is the exact quotient of the extended reals. So the result at (b, r, f) is the
  indicator of the aggregated entry.
-/
import proofs.«131060_j41077067219108_2_alg».proof.Proof.Gen.ReferenceIdeal.Read
import proofs.«131060_j41077067219108_2_alg».proof.Proof.AggregateIndicator

noncomputable section

namespace Cert.ReferenceIdeal.Layer

open Cert.ReferenceIdeal Cert.ReferenceIdeal.Gen Cert.ReferenceIdeal.Read
open Idealize.ShloMosaic Idealize.ShloMosaic.ValueIdx MaxLayer

/-- The `dot_general`'s two operand indices at output index `i` and contraction position `k` are
    (b, r, k) in the adjacency and (b, k, f) in the features. -/
theorem lidx_eq (i : S8x2048x64.Idx) (k : Fin 2048) : lidx_main_v0 i k = ix3 (i 0) (i 1) k :=
  funext fun d => match d with | ⟨0, _⟩ => rfl | ⟨1, _⟩ => rfl | ⟨2, _⟩ => rfl

theorem ridx_eq (i : S8x2048x64.Idx) (k : Fin 2048) : ridx_main_v0 i k = ix3 (i 0) k (i 2) :=
  funext fun d => match d with | ⟨0, _⟩ => rfl | ⟨1, _⟩ => rfl | ⟨2, _⟩ => rfl

/-- The product stage at an index is the aggregated entry. -/
theorem product_apply (x : (⟨S8x2048x64, .f32⟩ : BufTy).Contents (Elt Ideal)) (a : (⟨S8x2048x2048, .f32⟩ : BufTy).Contents (Elt Ideal))
    (i : S8x2048x64.Idx) : val_main_v0 (F := Ideal) x a i = aggregate a x (i 0) (i 1) (i 2) := by
  rw [val_main_v0_apply]
  unfold aggregate
  exact Finset.sum_congr rfl fun k _ => by rw [lidx_eq, ridx_eq]; rfl

/-- The whole reference term is the layer of its two arguments. -/
theorem result_eq (x : (⟨S8x2048x64, .f32⟩ : BufTy).Contents (Elt Ideal)) (a : (⟨S8x2048x2048, .f32⟩ : BufTy).Contents (Elt Ideal)) :
    val_main_v6 (F := Ideal) x a = layer a x := by
  funext i
  rw [val_main_v6_apply, val_main_v2_apply, val_main_v3_apply, val_main_v5_apply, val_main_v1_apply, val_main_v4_apply,
    val_main_cst_apply, val_main_cst_0_apply, product_apply]
  rfl

end Cert.ReferenceIdeal.Layer

end
-- ==== Proof.lean ====
/-
  The message-passing layer out[b] = indicator(a[b] · x[b]), with indicator(t) = (t / t where t > 1/2,
  t · 0 elsewhere), as a tiled kernel against its one-line reference.

  Over the extended reals both programs compute the same function of the two argument arrays
  (Proof/AggregateIndicator.lean): the kernel forms each 1024-row block of a[b] · x[b] by a matrix product
  into a zero accumulator, which is the plain sum over the 2048 contraction positions, applies the
  threshold step entry by entry and writes the block back, the sixteen blocks tiling the output
  (Proof/BodyEntry.lean, Proof/KernelLayer.lean); the reference forms the whole batched product by one
  dot_general, the same sum at every index, and applies the same step (Proof/ReferenceLayer.lean). No law
  of arithmetic beyond reading both sums at an index is needed: the two sides are the same sum, term by
  term and in the same order, so the precondition is never opened.

  The three frames are the generated ones (the reference's is its generated run with the result dropped);
  no operation of the kernel needed rewriting, so its idealization is its own text read over the extended reals.
-/
import proofs.«131060_j41077067219108_2_alg».proof.Defs
import proofs.«131060_j41077067219108_2_alg».proof.Proof.Gen.Kernel
import proofs.«131060_j41077067219108_2_alg».proof.Proof.Gen.Kernel.Skeleton
import proofs.«131060_j41077067219108_2_alg».proof.Proof.Gen.Kernel.Launch
import proofs.«131060_j41077067219108_2_alg».proof.Proof.Gen.Kernel.Points
import proofs.«131060_j41077067219108_2_alg».proof.Proof.Gen.Kernel.Frame
import proofs.«131060_j41077067219108_2_alg».proof.Proof.Gen.KernelIdeal
import proofs.«131060_j41077067219108_2_alg».proof.Proof.Gen.KernelIdeal.Skeleton
import proofs.«131060_j41077067219108_2_alg».proof.Proof.Gen.KernelIdeal.Launch
import proofs.«131060_j41077067219108_2_alg».proof.Proof.Gen.KernelIdeal.Points
import proofs.«131060_j41077067219108_2_alg».proof.Proof.Gen.KernelIdeal.Frame
import proofs.«131060_j41077067219108_2_alg».proof.Proof.Gen.ReferenceIdeal
import proofs.«131060_j41077067219108_2_alg».proof.Proof.Gen.Pre_finite_inputs
import proofs.«131060_j41077067219108_2_alg».proof.Proof.Gen.KernelIdeal.Value
import proofs.«131060_j41077067219108_2_alg».proof.Proof.Gen.ReferenceIdeal.Run
import proofs.«131060_j41077067219108_2_alg».proof.Proof.Gen.ReferenceIdeal.Read
import proofs.«131060_j41077067219108_2_alg».proof.Proof.KernelLayer
import proofs.«131060_j41077067219108_2_alg».proof.Proof.ReferenceLayer
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both runs end with the result array at the layer of the argument arrays, which agree. -/
theorem algebraic : Cert.algebraic_KernelIdeal_ReferenceIdeal := by
  intro m ρ m' ρ' _ hagree
  refine ⟨fun c => MaxLayer.layer (m ((c : Thread Cert.KernelIdeal.nD Cert.KernelIdeal.τ).loc Cert.KernelIdeal.main_arg1))
      (m ((c : Thread Cert.KernelIdeal.nD Cert.KernelIdeal.τ).loc Cert.KernelIdeal.main_arg0)),
    Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.Layer.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
